-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_arg5 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8192x1024 .f32) (main_arg1 : FVec F S8192x2048 .f32) (main_arg2 : FVec F S8192x2048 .f32) (main_arg3 : FVec F S2048x1024 .f32) (main_arg4 : FVec F S2048x2048 .f32) (main_arg5 : FVec F S2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Kernel.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S2048x1024, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S1024x2048, .bf16⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S8192x2048, .f32⟩
  | .hbm, ⟨12, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .vmem, ⟨7, _⟩ => ⟨S2048x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2048x1024_S1024x2048_1_0 : S2048x1024.Transposes [1, 0] S1024x2048
  bitsLt_bf16_f32 : FTy.bits .bf16 < FTy.bits .f32
  transposes_S2048x2048_S2048x2048_1_0 : S2048x2048.Transposes [1, 0] S2048x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .f32 = 32 ∨ (Rect.block (s := S8192x2048) S256x2048.size (cc0_transform_7 i) (hinb0_7 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S2048x1024 : Shape := ⟨2, ![2048, 1024]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S2048x1024, .f32⟩
  | .hbm, ⟨4, _⟩ => ⟨S2048x2048, .f32⟩
  | .hbm, ⟨5, _⟩ => ⟨S2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x1024_S2048x1024_S8192x2048_1_1_0_0_n_n_wf : DotDims.WF S8192x1024 S2048x1024 S8192x2048 [1] [1] [0] [0] [] []
  dot_S8192x2048_S2048x2048_S8192x2048_1_1_0_0_n_n_wf : DotDims.WF S8192x2048 S2048x2048 S8192x2048 [1] [1] [0] [0] [] []

variable [Facts₀]

def dot_S8192x1024_S2048x1024_S8192x2048_1_1_0_0_n_n : DotDims S8192x1024 S2048x1024 S8192x2048 where
  lhsContracting := [1]
  rhsContracting := [1]
  lhsNonContracting := [0]
  rhsNonContracting := [0]
  lhsBatch := []
  rhsBatch := []
  wf := dot_S8192x1024_S2048x1024_S8192x2048_1_1_0_0_n_n_wf
def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Spec.lean ====
/-
  One step of a leaky recurrent layer with an adaptation variable, as functions over the extended reals.

  The layer keeps, for each of 8192 rows b and 2048 units h, a state u[b,h] and an adaptation v[b,h].
  One step first moves the adaptation towards the state and clamps it at zero,
      v'[b,h] = max (κ_v · v[b,h] + γ_v · u[b,h]) 0,
  then moves the state towards its drive — the input row through the input weights, the old state row
  through the recurrent weights, the bias, less the NEW adaptation — and clamps it at zero,
      d[b,h]  = Σ_i x[b,i] · win[h,i]  +  Σ_k u[b,k] · wr[h,k]  +  bias[h],
      u'[b,h] = max (κ_u · u[b,h] + γ_u · (d[b,h] − v'[b,h])) 0.
  The four weights κ_v, γ_v, κ_u, γ_u are fixed binary32 numbers; they are kept as their words and never
  evaluated, since both sides of the comparison carry the same words. Both weight matrices are indexed
  [unit, source]: each sum runs over the SECOND axis of its matrix.
-/
import Idealize.ShloMosaic.PureOps.Ideal
import Idealize.ShloMosaic.Lib.ValueIdx

noncomputable section

namespace Cert.Sfa

open Idealize.ShloMosaic Idealize.ShloMosaic.ValueIdx

/-- Indices of an array of the given two extents. -/
abbrev Ix2 (a b : Nat) : Type := (⟨2, ![a, b]⟩ : Shape).Idx
/-- Indices of a vector of the given extent. -/
abbrev Ix1 (a : Nat) : Type := (⟨1, ![a]⟩ : Shape).Idx

/-- The share of the old adaptation that is kept (the binary32 number nearest 149/150). -/
abbrev keepV : EReal := Ideal.ofBits .f32 0x3F7E4B18#32
/-- The share of the state that enters the adaptation (the binary32 number nearest 1/15). -/
abbrev gainV : EReal := Ideal.ofBits .f32 0x3D888889#32
/-- The share of the old state that is kept (the binary32 number nearest 9/10). -/
abbrev keepU : EReal := Ideal.ofBits .f32 0x3F666666#32
/-- The share of the drive that enters the state (the binary32 number nearest 1/10). -/
abbrev gainU : EReal := Ideal.ofBits .f32 0x3DCCCCCD#32
/-- The floor of both clamps: the zero word. -/
abbrev floor0 : EReal := Ideal.ofBits .f32 0x00000000#32

/-- The adaptation's blend-and-clamp at one entry, from the entry's old adaptation and state. -/
def adaptAt (u v : EReal) : EReal := max (keepV * v + gainV * u) floor0

/-- The state's blend-and-clamp at one entry, from the entry's old state, its drive and its new adaptation. -/
def stateAt (u d a : EReal) : EReal := max (keepU * u + gainU * (d - a)) floor0

/-- The new adaptation, entry by entry. -/
def adapt (u v : Ix2 8192 2048 → EReal) : Ix2 8192 2048 → EReal :=
  fun i => adaptAt (u i) (v i)

/-- The drive of unit h in row b: the input row against row h of the input weights, the old state row against
    row h of the recurrent weights, and the unit's bias, added in this order. -/
def drive (x : Ix2 8192 1024 → EReal) (u : Ix2 8192 2048 → EReal) (win : Ix2 2048 1024 → EReal)
    (wr : Ix2 2048 2048 → EReal) (bias : Ix1 2048 → EReal) (b : Fin 8192) (h : Fin 2048) : EReal :=
  (∑ k : Fin 1024, x (ix2 b k) * win (ix2 h k)) + (∑ k : Fin 2048, u (ix2 b k) * wr (ix2 h k)) + bias (ix1 h)

/-- The new state, entry by entry. -/
def state (x : Ix2 8192 1024 → EReal) (u v : Ix2 8192 2048 → EReal) (win : Ix2 2048 1024 → EReal)
    (wr : Ix2 2048 2048 → EReal) (bias : Ix1 2048 → EReal) : Ix2 8192 2048 → EReal :=
  fun i => stateAt (u i) (drive x u win wr bias (i 0) (i 1)) (adapt u v i)

theorem adapt_ix2 (u v : Ix2 8192 2048 → EReal) (b : Fin 8192) (h : Fin 2048) :
    adapt u v (ix2 b h) = adaptAt (u (ix2 b h)) (v (ix2 b h)) := rfl

theorem state_ix2 (x : Ix2 8192 1024 → EReal) (u v : Ix2 8192 2048 → EReal) (win : Ix2 2048 1024 → EReal)
    (wr : Ix2 2048 2048 → EReal) (bias : Ix1 2048 → EReal) (b : Fin 8192) (h : Fin 2048) :
    state x u v win wr bias (ix2 b h)
      = stateAt (u (ix2 b h)) (drive x u win wr bias b h) (adaptAt (u (ix2 b h)) (v (ix2 b h))) := rfl

end Cert.Sfa

end
-- ==== Proof.RefStep.lean ====
/-
  The reference program's two results are the recurrent step's new state and new adaptation.

  Read one operation at a time, the reference's second result is max (κ_v · v + γ_v · u) 0 at every entry,
  and its first result is max (κ_u · u + γ_u · (d − that)) 0 with d the two contractions and the bias added
  in the specification's order. Its two contractions pair the SECOND axis of each operand, so the entry
  [b,h] sums x[b,k] · win[h,k] and u[b,k] · wr[h,k] over k — the specification's sums term by term — and
  the bias reaches entry [b,h] through two broadcasts as bias[h].
-/
import proofs.«401197_j10222022164700_3_alg».proof.Proof.Gen.ReferenceIdeal.Read
import proofs.«401197_j10222022164700_3_alg».proof.Proof.Spec

noncomputable section

namespace Cert.Sfa.Ref

open Cert.ReferenceIdeal Cert.ReferenceIdeal.Read Idealize.ShloMosaic Idealize.ShloMosaic.ValueIdx

/-- The first contraction reads the input at row b, column k, -/
theorem inputRow (i : S8192x2048.Idx) (k : Fin 1024) : lidx_main_v6 i k = ix2 (i 0) k :=
  funext fun a => Fin.ext (by match a with | ⟨0, _⟩ => rfl | ⟨1, _⟩ => rfl)
/-- and the input weights at row h, column k. -/
theorem inputWeight (i : S8192x2048.Idx) (k : Fin 1024) : ridx_main_v6 i k = ix2 (i 1) k :=
  funext fun a => Fin.ext (by match a with | ⟨0, _⟩ => rfl | ⟨1, _⟩ => rfl)
/-- The second contraction reads the old state at row b, column k, -/
theorem stateRow (i : S8192x2048.Idx) (k : Fin 2048) : lidx_main_v7 i k = ix2 (i 0) k :=
  funext fun a => Fin.ext (by match a with | ⟨0, _⟩ => rfl | ⟨1, _⟩ => rfl)
/-- and the recurrent weights at row h, column k. -/
theorem recurWeight (i : S8192x2048.Idx) (k : Fin 2048) : ridx_main_v7 i k = ix2 (i 1) k :=
  funext fun a => Fin.ext (by match a with | ⟨0, _⟩ => rfl | ⟨1, _⟩ => rfl)
/-- The twice-broadcast bias is read at the entry's unit. -/
theorem biasUnit (i : S8192x2048.Idx) : idx_main_v9 (idx_main_v10 i) = ix1 (i 1) :=
  funext fun a => Fin.ext (by match a with | ⟨0, _⟩ => rfl)

/-- The reference's second result is the new adaptation. -/
theorem adapt_eq (u v : (⟨S8192x2048, .f32⟩ : BufTy).Contents (Elt Ideal)) :
    val_main_v5 (F := Ideal) u v = adapt u v := by
  funext i
  rw [val_main_v5_apply, val_main_v4_apply, val_main_v1_apply, val_main_v3_apply, val_main_v0_apply,
    val_main_v2_apply, val_main_call0_v0_apply, val_main_cst_apply, val_main_cst_0_apply, val_main_call0_cst_apply]
  rfl

/-- The reference's first result is the new state. -/
theorem state_eq (x : (⟨S8192x1024, .f32⟩ : BufTy).Contents (Elt Ideal)) (u v : (⟨S8192x2048, .f32⟩ : BufTy).Contents (Elt Ideal))
    (win : (⟨S2048x1024, .f32⟩ : BufTy).Contents (Elt Ideal)) (wr : (⟨S2048x2048, .f32⟩ : BufTy).Contents (Elt Ideal))
    (bias : (⟨S2048, .f32⟩ : BufTy).Contents (Elt Ideal)) :
    val_main_v18 (F := Ideal) x u v win wr bias = state x u v win wr bias := by
  funext i
  rw [val_main_v18_apply, val_main_v17_apply, val_main_v14_apply, val_main_v16_apply, val_main_v12_apply,
    val_main_v11_apply, val_main_v8_apply, val_main_v6_apply, val_main_v7_apply, val_main_v10_apply, val_main_v9_apply,
    val_main_v13_apply, val_main_v15_apply, val_main_call1_v0_apply, val_main_cst_1_apply, val_main_cst_2_apply,
    val_main_call1_cst_apply, adapt_eq]
  simp only [inputRow, inputWeight, stateRow, recurWeight, biasUnit]
  rfl

end Cert.Sfa.Ref

end
-- ==== Proof.Body.lean ====
/-
  What one grid point's body stores, entry by entry, from the blocks it loads.

  The body works on 256 rows at a time. Into the adaptation's block it stores, at row p and unit h,
  max (κ_v · v[p,h] + γ_v · u[p,h]) 0 of the loaded state and adaptation blocks. Into the state's block it
  stores max (κ_u · u[p,h] + γ_u · (d − that)) 0, where d adds, in this order, the product of the row block
  of inputs with the TRANSPOSED input weights (a 1024 × 2048 matrix, so entry [p,h] sums x[p,k] · wt[k,h]),
  the product of the state block with the transposed recurrent weights, and the bias row at h. The
  narrowing of the products' operands to 16-bit floats changes nothing over the extended reals, and a
  product into a zero accumulator is the plain sum over the contracted axis.
-/
import proofs.«401197_j10222022164700_3_alg».proof.Proof.Gen.KernelIdeal.Skeleton
import proofs.«401197_j10222022164700_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Sfa.Body

open Cert.KernelIdeal Cert.KernelIdeal.Gen Idealize.ShloMosaic Idealize.ShloMosaic.ValueIdx

/-! ## The two matrix products' operand indices

Both products contract the left operand's second axis with the right operand's FIRST axis: entry (p, h) of
the result reads the left operand along row p and the right operand down column h. -/

theorem inLeft_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem inLeft_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem inRight_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem inRight_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

theorem recLeft_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem recLeft_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem recRight_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem recRight_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The input product into a zero accumulator, at row p and unit h: Σ_k l[p,k] · r[k,h]. -/
theorem inputProduct (l : FVec Ideal S256x1024 .bf16) (r : FVec Ideal S1024x2048 .bf16) (p : Fin 256) (h : Fin 2048) :
    matmul dot_S256x1024_S1024x2048_S256x2048_1_0_0_1_n_n none l r (constant S256x2048 .f32 0x00000000#32) (ix2 p h)
      = ∑ k : Fin 1024, l (ix2 p k) * r (ix2 k h) := by
  refine (Ideal.matmul_constant_zero_apply dot_S256x1024_S1024x2048_S256x2048_1_0_0_1_n_n none l r (ix2 p h)).trans ?_
  rw [← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p h) ((ValueIdx.contrEquiv1 dot_S256x1024_S1024x2048_S256x2048_1_0_0_1_n_n 1024 rfl rfl).symm k) = ix2 p k := funext fun a => Fin.ext (by
    match a with
    | ⟨0, _⟩ => exact inLeft_0 _ _
    | ⟨1, _⟩ => exact (inLeft_1 _ _).trans hk)
  have er : dot_S256x1024_S1024x2048_S256x2048_1_0_0_1_n_n.rhsIdx (ix2 p h) ((ValueIdx.contrEquiv1 dot_S256x1024_S1024x2048_S256x2048_1_0_0_1_n_n 1024 rfl rfl).symm k) = ix2 k h := funext fun a => Fin.ext (by
    match a with
    | ⟨0, _⟩ => exact (inRight_0 _ _).trans hk
    | ⟨1, _⟩ => exact inRight_1 _ _)
  rw [el, er]

/-- The recurrent product into a zero accumulator, at row p and unit h: Σ_k l[p,k] · r[k,h]. -/
theorem recurProduct (l : FVec Ideal S256x2048 .bf16) (r : FVec Ideal S2048x2048 .bf16) (p : Fin 256) (h : Fin 2048) :
    matmul dot_S256x2048_S2048x2048_S256x2048_1_0_0_1_n_n none l r (constant S256x2048 .f32 0x00000000#32) (ix2 p h)
      = ∑ k : Fin 2048, l (ix2 p k) * r (ix2 k h) := by
  refine (Ideal.matmul_constant_zero_apply dot_S256x2048_S2048x2048_S256x2048_1_0_0_1_n_n none l r (ix2 p h)).trans ?_
  rw [← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p h) ((ValueIdx.contrEquiv1 dot_S256x2048_S2048x2048_S256x2048_1_0_0_1_n_n 2048 rfl rfl).symm k) = ix2 p k := funext fun a => Fin.ext (by
    match a with
    | ⟨0, _⟩ => exact recLeft_0 _ _
    | ⟨1, _⟩ => exact (recLeft_1 _ _).trans hk)
  have er : dot_S256x2048_S2048x2048_S256x2048_1_0_0_1_n_n.rhsIdx (ix2 p h) ((ValueIdx.contrEquiv1 dot_S256x2048_S2048x2048_S256x2048_1_0_0_1_n_n 2048 rfl rfl).symm k) = ix2 k h := funext fun a => Fin.ext (by
    match a with
    | ⟨0, _⟩ => exact (recRight_0 _ _).trans hk
    | ⟨1, _⟩ => exact recRight_1 _ _)
  rw [el, er]

/-! ## The two stored values at an entry -/

/-- What goes into the adaptation's block at row p, unit h. -/
theorem adaptStored (u v : Vec Ideal S256x2048 .f32) (p : Fin 256) (h : Fin 2048) :
    k0_pay1 (F := Ideal) u v (ix2 p h) = adaptAt (u (ix2 p h)) (v (ix2 p h)) := rfl

/-- The bias row, cast to its own shape and broadcast down the 256 rows, read at row p, unit h. -/
theorem biasRow (b : Vec Ideal S1x2048 .f32) (p : Fin 256) (h : Fin 2048) :
    broadcastTo S256x2048 (shapeCast S1x2048 b shapeCasts_S1x2048_S1x2048) broadcasts_S1x2048_S256x2048 (ix2 p h)
      = b (ix2 (0 : Fin 1) h) := by
  rw [shapeCast_self]
  exact broadcastTo_1b_ab_apply b broadcasts_S1x2048_S256x2048 p h

/-- What goes into the state's block at row p, unit h. -/
theorem stateStored (u v : Vec Ideal S256x2048 .f32) (x : Vec Ideal S256x1024 .f32) (wt : Vec Ideal S1024x2048 .bf16)
    (rt : Vec Ideal S2048x2048 .bf16) (b : Vec Ideal S1x2048 .f32) (p : Fin 256) (h : Fin 2048) :
    k0_pay2 (F := Ideal) u v x wt rt b (ix2 p h)
      = stateAt (u (ix2 p h))
          ((∑ k : Fin 1024, x (ix2 p k) * wt (ix2 k h)) + (∑ k : Fin 2048, u (ix2 p k) * rt (ix2 k h)) + b (ix2 (0 : Fin 1) h))
          (adaptAt (u (ix2 p h)) (v (ix2 p h))) := by
  have e1 := inputProduct (truncf .bf16 x bitsLt_bf16_f32) (shapeCast S1024x2048 wt shapeCasts_S1024x2048_S1024x2048) p h
  have e2 := recurProduct (truncf .bf16 u bitsLt_bf16_f32) (shapeCast S2048x2048 rt shapeCasts_S2048x2048_S2048x2048) p h
  have e3 := biasRow b p h
  unfold k0_pay2
  simp only [maximumf_apply, addf_apply, mulf_apply, subf_apply, broadcast_apply]
  rw [e1, e2, e3, shapeCast_self, shapeCast_self]
  rfl

/-! ## The stored values when the loaded blocks are rows of whole arrays -/

/-- If the loaded state and adaptation blocks hold rows ρ p of two arrays, the stored adaptation block holds
    the same rows of the arrays' new adaptation. -/
theorem adaptStored_rows (U A : Ix2 8192 2048 → EReal) (ub vb : Vec Ideal S256x2048 .f32) (ρ : Fin 256 → Fin 8192)
    (hu : ∀ (p : Fin 256) (h : Fin 2048), ub (ix2 p h) = U (ix2 (ρ p) h))
    (hv : ∀ (p : Fin 256) (h : Fin 2048), vb (ix2 p h) = A (ix2 (ρ p) h))
    (p : Fin 256) (h : Fin 2048) :
    k0_pay1 (F := Ideal) ub vb (ix2 p h) = adapt U A (ix2 (ρ p) h) := by
  rw [adaptStored, adapt_ix2, hu, hv]

/-- If moreover the loaded input block holds rows ρ p of the inputs, the two loaded weight matrices are the
    transposes of the weights, and the loaded bias row is the bias, the stored state block holds rows ρ p of the
    new state. -/
theorem stateStored_rows (X : Ix2 8192 1024 → EReal) (U A : Ix2 8192 2048 → EReal) (Win : Ix2 2048 1024 → EReal)
    (Wr : Ix2 2048 2048 → EReal) (B : Ix1 2048 → EReal)
    (ub vb : Vec Ideal S256x2048 .f32) (xb : Vec Ideal S256x1024 .f32) (wt : Vec Ideal S1024x2048 .bf16)
    (rt : Vec Ideal S2048x2048 .bf16) (bb : Vec Ideal S1x2048 .f32) (ρ : Fin 256 → Fin 8192)
    (hu : ∀ (p : Fin 256) (h : Fin 2048), ub (ix2 p h) = U (ix2 (ρ p) h))
    (hv : ∀ (p : Fin 256) (h : Fin 2048), vb (ix2 p h) = A (ix2 (ρ p) h))
    (hx : ∀ (p : Fin 256) (k : Fin 1024), xb (ix2 p k) = X (ix2 (ρ p) k))
    (hwt : ∀ (k : Fin 1024) (h : Fin 2048), wt (ix2 k h) = Win (ix2 h k))
    (hrt : ∀ (k : Fin 2048) (h : Fin 2048), rt (ix2 k h) = Wr (ix2 h k))
    (hb : ∀ h : Fin 2048, bb (ix2 (0 : Fin 1) h) = B (ix1 h))
    (p : Fin 256) (h : Fin 2048) :
    k0_pay2 (F := Ideal) ub vb xb wt rt bb (ix2 p h) = state X U A Win Wr B (ix2 (ρ p) h) := by
  rw [stateStored, state_ix2]
  unfold drive
  simp only [hu, hv, hx, hwt, hrt, hb]

end Cert.Sfa.Body

end
-- ==== Proof.Staged.lean ====
/-
  What the region finds in the three arrays the host prepares before it.

  Before the region the host transposes each weight matrix and narrows it to 16-bit floats, and gives the bias a
  leading unit axis. Over the extended reals the narrowing is the identity, so the region finds the transposed
  input weights wt[k,h] = win[h,k], the transposed recurrent weights rt[k,h] = wr[h,k], and the bias as one
  row, row[0,h] = bias[h].
-/
import proofs.«401197_j10222022164700_3_alg».proof.Proof.Gen.KernelIdeal.Frame
import Idealize.ShloMosaic.Lib.StableHlo.Run
import Idealize.ShloMosaic.Lib.ValueIdx
import Idealize.ShloMosaic.Lib.ValueLayout

noncomputable section

namespace Cert.Sfa.Staged

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The array of the input weights' window, as the host left it. -/
theorem inWeights (c : Dev nD) :
    (V m c main_v1 : S1024x2048.Idx → EReal)
      = truncf (F := Ideal) .bf16 (transpose S1024x2048 [1, 0] (m ((c : Thread nD τ).loc main_arg3)) transposes_S2048x1024_S1024x2048_1_0) bitsLt_bf16_f32 := by
  dsimp only [Gen.V, Gen.hostOps0]; after_results <;> rfl

/-- The array of the recurrent weights' window, as the host left it. -/
theorem recWeights (c : Dev nD) :
    (V m c main_v3 : S2048x2048.Idx → EReal)
      = truncf (F := Ideal) .bf16 (transpose S2048x2048 [1, 0] (m ((c : Thread nD τ).loc main_arg4)) transposes_S2048x2048_S2048x2048_1_0) bitsLt_bf16_f32 := by
  dsimp only [Gen.V, Gen.hostOps0]; after_results <;> rfl

/-- The array of the bias window, as the host left it. -/
theorem biasRowArr (c : Dev nD) :
    (V m c main_v4 : S1x2048.Idx → EReal)
      = shapeCast S1x2048 (m ((c : Thread nD τ).loc main_arg5)) shapeCasts_S2048_S1x2048 := by
  dsimp only [Gen.V, Gen.hostOps0]; after_results <;> rfl

/-- The staged input weights at (k, h) are the input weights at (h, k). -/
theorem inWeights_at (c : Dev nD) (k : Fin 1024) (h : Fin 2048) :
    (V m c main_v1 : S1024x2048.Idx → EReal) (ix2 k h) = (m ((c : Thread nD τ).loc main_arg3) : S2048x1024.Idx → EReal) (ix2 h k) :=
  (congrFun (inWeights m c) (ix2 k h)).trans
    (transpose_ix2_apply (m ((c : Thread nD τ).loc main_arg3) : S2048x1024.Idx → EReal) transposes_S2048x1024_S1024x2048_1_0 k h)

/-- The staged recurrent weights at (k, h) are the recurrent weights at (h, k). -/
theorem recWeights_at (c : Dev nD) (k : Fin 2048) (h : Fin 2048) :
    (V m c main_v3 : S2048x2048.Idx → EReal) (ix2 k h) = (m ((c : Thread nD τ).loc main_arg4) : S2048x2048.Idx → EReal) (ix2 h k) :=
  (congrFun (recWeights m c) (ix2 k h)).trans
    (transpose_ix2_apply (m ((c : Thread nD τ).loc main_arg4) : S2048x2048.Idx → EReal) transposes_S2048x2048_S2048x2048_1_0 k h)

/-- The staged bias row at (0, h) is the bias at h. -/
theorem biasRow_at (c : Dev nD) (h : Fin 2048) :
    (V m c main_v4 : S1x2048.Idx → EReal) (ix2 (0 : Fin 1) h) = (m ((c : Thread nD τ).loc main_arg5) : S2048.Idx → EReal) (ix1 h) :=
  (congrFun (biasRowArr m c) (ix2 (0 : Fin 1) h)).trans
    (shapeCast_a_1a_apply (m ((c : Thread nD τ).loc main_arg5) : S2048.Idx → EReal) shapeCasts_S2048_S1x2048 0 h)

end Cert.Sfa.Staged

end
-- ==== Proof.Arrays.lean ====
/-
  From blocks to whole arrays: after the region each output array holds the recurrent step of the arguments.

  The grid has 32 points. Point t loads rows 256·t … 256·t + 255 of the inputs, the state and the adaptation,
  the whole of both transposed weight matrices and the bias row, and writes back rows 256·t … 256·t + 255 of
  the two outputs. What it writes back is therefore those rows of the new state and of the new adaptation of
  the whole arrays; the 32 row bands cover all 8192 rows, so each output array ends as the whole new state,
  or the whole new adaptation, of the arguments.
-/
import proofs.«401197_j10222022164700_3_alg».proof.Proof.Gen.KernelIdeal.Value
import proofs.«401197_j10222022164700_3_alg».proof.Proof.Spec
import proofs.«401197_j10222022164700_3_alg».proof.Proof.Body
import proofs.«401197_j10222022164700_3_alg».proof.Proof.Staged

noncomputable section

namespace Cert.Sfa.Arrays

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The arrays and the blocks, at their literal types -/

/-- The inputs, the state and the adaptation as the region finds them. -/
abbrev xArr (c : Dev nD) : Ix2 8192 1024 → EReal := V m c main_arg0
abbrev uArr (c : Dev nD) : Ix2 8192 2048 → EReal := V m c main_arg1
abbrev vArr (c : Dev nD) : Ix2 8192 2048 → EReal := V m c main_arg2
/-- The weights and the bias as launched. -/
abbrev winArg (c : Dev nD) : Ix2 2048 1024 → EReal := m ((c : Thread nD τ).loc main_arg3)
abbrev wrArg (c : Dev nD) : Ix2 2048 2048 → EReal := m ((c : Thread nD τ).loc main_arg4)
abbrev biasArg (c : Dev nD) : Ix1 2048 → EReal := m ((c : Thread nD τ).loc main_arg5)

/-- The six blocks point t loads. -/
abbrev xBlk (c : Dev nD) (t : Fin cfg0.N) : Vec Ideal S256x1024 .f32 := iblk m c 0 t
abbrev uBlk (c : Dev nD) (t : Fin cfg0.N) : Vec Ideal S256x2048 .f32 := iblk m c 1 t
abbrev vBlk (c : Dev nD) (t : Fin cfg0.N) : Vec Ideal S256x2048 .f32 := iblk m c 2 t
abbrev wtBlk (c : Dev nD) (t : Fin cfg0.N) : Vec Ideal S1024x2048 .bf16 := iblk m c 3 t
abbrev rtBlk (c : Dev nD) (t : Fin cfg0.N) : Vec Ideal S2048x2048 .bf16 := iblk m c 4 t
abbrev bBlk (c : Dev nD) (t : Fin cfg0.N) : Vec Ideal S1x2048 .f32 := iblk m c 5 t

/-- The new state and the new adaptation of the arrays as the region finds them. -/
abbrev newState (c : Dev nD) : Ix2 8192 2048 → EReal :=
  state (xArr m c) (uArr m c) (vArr m c) (winArg m c) (wrArg m c) (biasArg m c)
abbrev newAdapt (c : Dev nD) : Ix2 8192 2048 → EReal := adapt (uArr m c) (vArr m c)

/-! ## Where each window's block sits -/

theorem origin : (![0, 0] : Fin 2 → Nat) = fun _ => 0 := funext fun a => by fin_cases a <;> rfl

/-- The row-tiled windows (inputs, state, adaptation and both outputs) are at block row t, block column 0; the
    weights and the bias stay at block (0, 0). Decided over the 32 points. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := lt_of_lt_of_eq t.isLt N_0

/-- Row p of point t's band is row 256·t + p of the arrays. -/
def bandRow (t : Fin cfg0.N) (p : Fin 256) : Fin 8192 :=
  ⟨256 * t.val + p.val, by have := point_lt t; have := p.isLt; omega⟩

theorem bandRow_val (t : Fin cfg0.N) (p : Fin 256) : (bandRow t p).val = 256 * t.val + p.val := rfl

/-! ## The loaded blocks are rows of the arrays -/

theorem xBlk_at (c : Dev nD) (t : Fin cfg0.N) (p : Fin 256) (k : Fin 1024) :
    xBlk m c t (ix2 p k) = xArr m c (ix2 (bandRow t p) k) := by
  obtain ⟨e0, e1, -⟩ := blockIndex t
  show V m c main_arg0 (((cfg0.win 0).blk t).view.emb (ix2 p k)) = V m c main_arg0 (ix2 (bandRow t p) k)
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

theorem uBlk_at (c : Dev nD) (t : Fin cfg0.N) (p : Fin 256) (h : Fin 2048) :
    uBlk m c t (ix2 p h) = uArr m c (ix2 (bandRow t p) h) := by
  obtain ⟨-, -, e0, e1, -⟩ := blockIndex t
  show V m c main_arg1 (((cfg0.win 1).blk t).view.emb (ix2 p h)) = V m c main_arg1 (ix2 (bandRow t p) h)
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 2048 + 1 * h.val = h.val; omega

theorem vBlk_at (c : Dev nD) (t : Fin cfg0.N) (p : Fin 256) (h : Fin 2048) :
    vBlk m c t (ix2 p h) = vArr m c (ix2 (bandRow t p) h) := by
  obtain ⟨-, -, -, -, e0, e1, -⟩ := blockIndex t
  show V m c main_arg2 (((cfg0.win 2).blk t).view.emb (ix2 p h)) = V m c main_arg2 (ix2 (bandRow t p) h)
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 2048 + 1 * h.val = h.val; omega

theorem wtBlk_at (c : Dev nD) (t : Fin cfg0.N) (k : Fin 1024) (h : Fin 2048) :
    wtBlk m c t (ix2 k h) = winArg m c (ix2 h k) := by
  obtain ⟨-, -, -, -, -, -, e0, e1, -⟩ := blockIndex t
  refine Eq.trans ?_ (Staged.inWeights_at m c k h)
  show V m c main_v1 (((cfg0.win 3).blk t).view.emb (ix2 k h)) = V m c main_v1 (ix2 k h)
  refine congrArg _ (funext fun a => Fin.ext ?_)
  match a with
  | ⟨0, _⟩ => show win0_3.index t (0 : Fin 2) * 1024 + 1 * k.val = k.val; omega
  | ⟨1, _⟩ => show win0_3.index t (1 : Fin 2) * 2048 + 1 * h.val = h.val; omega

theorem rtBlk_at (c : Dev nD) (t : Fin cfg0.N) (k : Fin 2048) (h : Fin 2048) :
    rtBlk m c t (ix2 k h) = wrArg m c (ix2 h k) := by
  obtain ⟨-, -, -, -, -, -, -, -, e0, e1, -⟩ := blockIndex t
  refine Eq.trans ?_ (Staged.recWeights_at m c k h)
  show V m c main_v3 (((cfg0.win 4).blk t).view.emb (ix2 k h)) = V m c main_v3 (ix2 k h)
  refine congrArg _ (funext fun a => Fin.ext ?_)
  match a with
  | ⟨0, _⟩ => show win0_4.index t (0 : Fin 2) * 2048 + 1 * k.val = k.val; omega
  | ⟨1, _⟩ => show win0_4.index t (1 : Fin 2) * 2048 + 1 * h.val = h.val; omega

theorem bBlk_at (c : Dev nD) (t : Fin cfg0.N) (h : Fin 2048) :
    bBlk m c t (ix2 (0 : Fin 1) h) = biasArg m c (ix1 h) := by
  obtain ⟨-, -, -, -, -, -, -, -, -, -, e0, e1, -⟩ := blockIndex t
  refine Eq.trans ?_ (Staged.biasRow_at m c h)
  show V m c main_v4 (((cfg0.win 5).blk t).view.emb (ix2 (0 : Fin 1) h)) = V m c main_v4 (ix2 (0 : Fin 1) h)
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 2048 + 1 * h.val = h.val; omega

/-- An entry (p, h) of an output block at point t sits at row 256·t + p, unit h of the output array. -/
theorem stateOut_at (t : Fin cfg0.N) (p : Fin 256) (h : Fin 2048) :
    ((cfg0.win 6).blk t).view.emb (ix2 p h) = ix2 (bandRow t p) h := by
  obtain ⟨-, -, -, -, -, -, -, -, -, -, -, -, e0, e1, -⟩ := blockIndex t
  refine funext fun a => Fin.ext ?_
  match a with
  | ⟨0, _⟩ => show win0_6.index t (0 : Fin 2) * 256 + 1 * p.val = 256 * t.val + p.val; omega
  | ⟨1, _⟩ => show win0_6.index t (1 : Fin 2) * 2048 + 1 * h.val = h.val; omega

theorem adaptOut_at (t : Fin cfg0.N) (p : Fin 256) (h : Fin 2048) :
    ((cfg0.win 7).blk t).view.emb (ix2 p h) = ix2 (bandRow t p) h := by
  obtain ⟨-, -, -, -, -, -, -, -, -, -, -, -, -, -, e0, e1⟩ := blockIndex t
  refine funext fun a => Fin.ext ?_
  match a with
  | ⟨0, _⟩ => show win0_7.index t (0 : Fin 2) * 256 + 1 * p.val = 256 * t.val + p.val; omega
  | ⟨1, _⟩ => show win0_7.index t (1 : Fin 2) * 2048 + 1 * h.val = h.val; omega

/-! ## What each point writes back -/

/-- Point t writes back its row band of the new state. -/
theorem stateFlushed (c : Dev nD) (t : Fin cfg0.N) :
    (dats m 0 c).flushed 6 t = ((cfg0.win 6).blk t).view.read (Elt Ideal) (newState m c) := by
  rw [Value.flushed6]
  unfold out0_6
  rw [View.canon_unit_zero origin]
  simp only [View.ld_unit_zero (S := S256x2048) origin, View.ld_unit_zero (S := S256x1024) origin,
    View.ld_unit_zero (S := S1024x2048) origin, View.ld_unit_zero (S := S2048x2048) origin,
    View.ld_unit_zero (S := S1x2048) origin]
  funext j
  obtain ⟨p, h, rfl⟩ : ∃ (p : Fin 256) (h : Fin 2048), j = ix2 p h := ⟨j 0, j 1, eq_ix2 j⟩
  show k0_pay2 (F := Ideal) (uBlk m c t) (vBlk m c t) (xBlk m c t) (wtBlk m c t) (rtBlk m c t) (bBlk m c t) (ix2 p h)
    = newState m c (((cfg0.win 6).blk t).view.emb (ix2 p h))
  rw [stateOut_at t p h]
  exact Body.stateStored_rows (xArr m c) (uArr m c) (vArr m c) (winArg m c) (wrArg m c) (biasArg m c)
    (uBlk m c t) (vBlk m c t) (xBlk m c t) (wtBlk m c t) (rtBlk m c t) (bBlk m c t) (bandRow t)
    (uBlk_at m c t) (vBlk_at m c t) (xBlk_at m c t) (wtBlk_at m c t) (rtBlk_at m c t) (bBlk_at m c t) p h

/-- Point t writes back its row band of the new adaptation. -/
theorem adaptFlushed (c : Dev nD) (t : Fin cfg0.N) :
    (dats m 0 c).flushed 7 t = ((cfg0.win 7).blk t).view.read (Elt Ideal) (newAdapt m c) := by
  rw [Value.flushed7]
  unfold out0_7
  rw [View.canon_unit_zero origin]
  simp only [View.ld_unit_zero (S := S256x2048) origin]
  funext j
  obtain ⟨p, h, rfl⟩ : ∃ (p : Fin 256) (h : Fin 2048), j = ix2 p h := ⟨j 0, j 1, eq_ix2 j⟩
  show k0_pay1 (F := Ideal) (uBlk m c t) (vBlk m c t) (ix2 p h) = newAdapt m c (((cfg0.win 7).blk t).view.emb (ix2 p h))
  rw [adaptOut_at t p h]
  exact Body.adaptStored_rows (uArr m c) (vArr m c) (uBlk m c t) (vBlk m c t) (bandRow t)
    (uBlk_at m c t) (vBlk_at m c t) p h

/-! ## The row bands cover the arrays -/

/-- An index of an output array is in point t's block iff each coordinate is in the block's range on its axis. -/
theorem mem_stateBand (t : Fin cfg0.N) (i : S8192x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v5_0).slice (win0_6.rect t)).set ↔ _
  rw [View.set_slice_whole, Rect.mem_set_unit]
  exact Iff.rfl

theorem mem_adaptBand (t : Fin cfg0.N) (i : S8192x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v5_1).slice (win0_7.rect t)).set ↔ _
  rw [View.set_slice_whole, Rect.mem_set_unit]
  exact Iff.rfl

/-- Row r lies in the band of point r / 256. -/
theorem stateCover (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 32 := N_0
  let t : Fin cfg0.N := ⟨(i 0).val / 256, by rw [hN]; omega⟩
  have ht : t.val = (i 0).val / 256 := rfl
  obtain ⟨-, -, -, -, -, -, -, -, -, -, -, -, e0, e1, -⟩ := blockIndex t
  refine ⟨t, flush0_6 t, ?_⟩
  rw [mem_stateBand]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

theorem adaptCover (i : S8192x2048.Idx) :
    ∃ t : Fin cfg0.N, (cfg0.win 7).flush t = true ∧ i ∈ ((cfg0.win 7).blk t).view.set := by
  have hi0 : (i 0).val < 8192 := (i 0).isLt
  have hi1 : (i 1).val < 2048 := (i 1).isLt
  have hN : cfg0.N = 32 := N_0
  let t : Fin cfg0.N := ⟨(i 0).val / 256, by rw [hN]; omega⟩
  have ht : t.val = (i 0).val / 256 := rfl
  obtain ⟨-, -, -, -, -, -, -, -, -, -, -, -, -, -, e0, e1⟩ := blockIndex t
  refine ⟨t, flush0_7 t, ?_⟩
  rw [mem_adaptBand]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 2048 ≤ (i 1).val ∧ (i 1).val < win0_7.index t (1 : Fin 2) * 2048 + 2048; omega

/-! ## The arrays after the run -/

/-- The state's output array ends as the new state of the arrays the region found. -/
theorem stateFinal (c : Dev nD) : (dats m 0 c).arrAt 6 cfg0.N = newState m c :=
  (dats m 0 c).arrAt_eq_of_cover 6 (newState m c) (fun t _ => stateFlushed m c t) stateCover

/-- The adaptation's output array ends as the new adaptation of the arrays the region found. -/
theorem adaptFinal (c : Dev nD) : (dats m 0 c).arrAt 7 cfg0.N = newAdapt m c :=
  (dats m 0 c).arrAt_eq_of_cover 7 (newAdapt m c) (fun t _ => adaptFlushed m c t) adaptCover

/-- The arrays the region finds are the arguments as launched, so the step is of the launch memory. -/
theorem newState_launch (c : Dev nD) :
    newState m c = state (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  show state (V m c main_arg0) (V m c main_arg1) (V m c main_arg2) _ _ _ = _
  rw [V_main_arg0, V_main_arg1, V_main_arg2]

theorem newAdapt_launch (c : Dev nD) :
    newAdapt m c = adapt (m ((c : Thread nD τ).loc main_arg1)) (m ((c : Thread nD τ).loc main_arg2)) := by
  show adapt (V m c main_arg1) (V m c main_arg2) = _
  rw [V_main_arg1, V_main_arg2]

/-- The kernel's run: both output arrays at the recurrent step of the launch arguments, the arguments unchanged. -/
theorem run : θ_run defs (onTc (τ := τ) (main (F := Ideal))) ⟨m, fun _ => 0, ρ⟩ fun r => ∀ c : Dev nD,
      r.2.mem ((c : Thread nD τ).loc main_v5_0) = state (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_v5_1) = adapt (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (stateFinal m c)).trans (newState_launch m c),
      ((h c).2.1.trans (adaptFinal m c)).trans (newAdapt_launch m c), (h c).2.2⟩)
    (Value.run_blocks m ρ)

end Cert.Sfa.Arrays

end
-- ==== Proof.lean ====
/-
  A fused step of a leaky recurrent layer with an adaptation variable, against its plain array formulation.

  For 8192 rows and 2048 units both programs compute, from inputs x, state u, adaptation v, input weights win,
  recurrent weights wr and a bias,
      v'[b,h] = max (κ_v · v[b,h] + γ_v · u[b,h]) 0,
      u'[b,h] = max (κ_u · u[b,h] + γ_u · (Σ_i x[b,i] · win[h,i] + Σ_k u[b,k] · wr[h,k] + bias[h] − v'[b,h])) 0,
  and return (u', v'). The four weights are the same binary32 words in both programs.

  The tiled program transposes both weight matrices beforehand, narrows them and the left operands of its two
  matrix products to 16-bit floats, and works on bands of 256 rows; the plain one contracts the second axes of
  the untransposed matrices over all rows at once. Over the extended reals the narrowing is the identity, a
  product with a transposed matrix has the same terms as a contraction of second axes, and the 32 bands of 256
  rows cover the 8192 rows, so the two programs add and multiply the same numbers in the same grouping: no law of
  arithmetic beyond that is used, and the finiteness of the inputs is never needed.

  The pieces: the step as functions (Spec), the plain program read one operation at a time (RefStep), what one
  grid point stores from the blocks it loads (Body), what the host prepares before the tiled region (Staged),
  and the passage from row bands to whole arrays (Arrays). The frames of the two tiled programs and the run of
  the plain one are the generated ones; the word-level program has no idealization rewrite to account for.
-/
import proofs.«401197_j10222022164700_3_alg».proof.Defs
import proofs.«401197_j10222022164700_3_alg».proof.Proof.Gen.Kernel
import proofs.«401197_j10222022164700_3_alg».proof.Proof.Gen.Kernel.Skeleton
import proofs.«401197_j10222022164700_3_alg».proof.Proof.Gen.Kernel.Launch
import proofs.«401197_j10222022164700_3_alg».proof.Proof.Gen.Kernel.Points
import proofs.«401197_j10222022164700_3_alg».proof.Proof.Gen.Kernel.Frame
import proofs.«401197_j10222022164700_3_alg».proof.Proof.Gen.KernelIdeal
import proofs.«401197_j10222022164700_3_alg».proof.Proof.Gen.KernelIdeal.Skeleton
import proofs.«401197_j10222022164700_3_alg».proof.Proof.Gen.KernelIdeal.Launch
import proofs.«401197_j10222022164700_3_alg».proof.Proof.Gen.KernelIdeal.Points
import proofs.«401197_j10222022164700_3_alg».proof.Proof.Gen.KernelIdeal.Frame
import proofs.«401197_j10222022164700_3_alg».proof.Proof.Gen.ReferenceIdeal
import proofs.«401197_j10222022164700_3_alg».proof.Proof.Gen.Pre_finite_inputs
import proofs.«401197_j10222022164700_3_alg».proof.Proof.Gen.KernelIdeal.Value
import proofs.«401197_j10222022164700_3_alg».proof.Proof.Gen.ReferenceIdeal.Run
import proofs.«401197_j10222022164700_3_alg».proof.Proof.Gen.ReferenceIdeal.Read
import proofs.«401197_j10222022164700_3_alg».proof.Proof.Spec
import proofs.«401197_j10222022164700_3_alg».proof.Proof.RefStep
import proofs.«401197_j10222022164700_3_alg».proof.Proof.Arrays
import Idealize.ShloMosaic.Adequacy
import Idealize.ShloMosaic.Init

noncomputable section

namespace Cert.Proof

open Idealize.ShloMosaic Idealize.ShloMosaic.TcCoe Idealize.SL.Sem

/-- The word-level tiled program runs and leaves its arguments as they were. -/
theorem frame_kernel : Cert.frame_Kernel := fun m ρ _ => Cert.Kernel.Gen.frame m ρ

/-- So does the tiled program read over the extended reals. -/
theorem frame_kernelIdeal : Cert.frame_KernelIdeal := fun m ρ _ => Cert.KernelIdeal.Gen.frame m ρ

/-- The plain program runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the new state in their first result
    and the new adaptation in their second: the tiled one band by band, the plain one operation by operation. -/
theorem algebraic : Cert.algebraic_KernelIdeal_ReferenceIdeal := by
  intro m ρ m' ρ' _ hagree
  refine ⟨_, _, Cert.Sfa.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.Sfa.Ref.state_eq, (hagree c).1, (hagree c).2.1, (hagree c).2.2.1,
      (hagree c).2.2.2.1, (hagree c).2.2.2.2.1, (hagree c).2.2.2.2.2]
  · rw [Cert.ReferenceIdeal.Read.val_main_v5_eq, Cert.Sfa.Ref.adapt_eq, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
